-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x32768x3 : S_.BroadcastsInDim S2x32768x3 (![] : Fin 0 → Fin S2x32768x3.rank)
  reducesTo_S2x32768x3_S_d0_1_2 : S2x32768x3.ReducesTo [0, 1, 2] S_

variable [Facts]

def fn {F : FTy → Type} [FloatOps F] (main_arg0 : FVec F S2x8192x3 .f32) (main_arg1 : FVec F S2x32768x3 .f32) (main_arg2 : IVec S4096 32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x32768x3 .f32 := Host.absf main_arg1
  let main_cst_0 : FVec F S_ .f32 := constant S_ .f32 0x7F800000#32
  let main_v5 : FVec F S2x32768x3 .f32 := broadcastInDim S2x32768x3 ![] bcast_S_S2x32768x3 main_cst_0
  let main_v6 : IVec S2x32768x3 1 := cmpf .olt main_v4 main_v5
  let main_c_1 : IVec S_ 1 := constantI S_ 1 1#1
  let main_v7 : IVec S_ 1 := (fun x v => Host.reduce IntOp.andi x v reducesTo_S2x32768x3_S_d0_1_2 h_S_) main_v6 main_c_1
  let main_v8 : IVec S_ 1 := andi main_v3 main_v7
  main_v8
-- ==== Kernel.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩
abbrev S4096x1 : Shape := ⟨2, ![4096, 1]⟩
abbrev S2x4096x3 : Shape := ⟨3, ![2, 4096, 3]⟩
abbrev S2x4096 : Shape := ⟨2, ![2, 4096]⟩
abbrev S2x512x3 : Shape := ⟨3, ![2, 512, 3]⟩
abbrev S2x2048x3 : Shape := ⟨3, ![2, 2048, 3]⟩
abbrev S2x512 : Shape := ⟨2, ![2, 512]⟩
abbrev S2x2048 : Shape := ⟨2, ![2, 2048]⟩
abbrev S2x512x2048 : Shape := ⟨3, ![2, 512, 2048]⟩
abbrev S2x512x1 : Shape := ⟨3, ![2, 512, 1]⟩
abbrev S2x1x2048 : Shape := ⟨3, ![2, 1, 2048]⟩

abbrev nBuf : Space → Nat
  | .hbm => 17
  | .vmem => 7
  | .smem => 0
  | _ => 0

abbrev bufTy : (tb : Table) → Fin (tcTables nBuf tb) → BufTy
  | .hbm, ⟨0, _⟩ => ⟨S2x8192x3, .f32⟩
  | .hbm, ⟨1, _⟩ => ⟨S2x32768x3, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S2x4096x3, .f32⟩
  | .hbm, ⟨12, _⟩ => ⟨S2x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2x512x3, .f32⟩
  | .local _ .vmem, ⟨1, _⟩ => ⟨S2x512x3, .f32⟩
  | .local _ .vmem, ⟨2, _⟩ => ⟨S2x2048x3, .f32⟩
  | .local _ .vmem, ⟨3, _⟩ => ⟨S2x2048x3, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S2x512x3_S2x512x3_0_0_0 : ∀ a, (![0, 0, 0] : Fin 3 → Nat) a + S2x512x3.size a ≤ S2x512x3.size a
  h_S2x512x3 : 0 < S2x512x3.numel
  shapeCasts_S2x512x3_S2x512x3 : S2x512x3.ShapeCasts S2x512x3
  inb_S2x2048x3_S2x2048x3_0_0_0 : ∀ a, (![0, 0, 0] : Fin 3 → Nat) a + S2x2048x3.size a ≤ S2x2048x3.size a
  h_S2x2048x3 : 0 < S2x2048x3.numel
  reduces_S2x512x3_S2x512 : S2x512x3.Reduces [2] S2x512
  reduces_S2x2048x3_S2x2048 : S2x2048x3.Reduces [2] S2x2048
  shapeCasts_S2x512_S2x512x1 : S2x512.ShapeCasts S2x512x1
  shapeCasts_S2x2048_S2x1x2048 : S2x2048.ShapeCasts S2x1x2048
  broadcasts_S2x512x1_S2x512x2048 : S2x512x1.Broadcasts S2x512x2048
  broadcasts_S2x1x2048_S2x512x2048 : S2x1x2048.Broadcasts S2x512x2048
  reduces_S2x512x2048_S2x512 : S2x512x2048.Reduces [2] S2x512
  reducesTo_S2x4096_S_d0_1 : S2x4096.ReducesTo [0, 1] S_
  h_S_ : 0 < S_.numel
  gather_S2x8192x3_S4096x1_S2x4096x3_02_1_n_n_1_1_213_wf : GatherDims.WF S2x8192x3 S4096x1 S2x4096x3 [0, 2] [1] [] [1] [] 1 ![2, 1, 3]
  dot_S2x512x3_S2x2048x3_S2x512x2048_2_2_1_1_0_0_wf : DotDims.WF S2x512x3 S2x2048x3 S2x512x2048 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x3.size a ≤ S2x4096x3.size a
  hwx0_0 : ∀ i : grid0.Coords, EltTy.bits .f32 = 32 ∨ (Rect.block (s := S2x4096x3) S2x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048x3.size a ≤ S2x32768x3.size a
  hwx0_1 : ∀ i : grid0.Coords, EltTy.bits .f32 = 32 ∨ (Rect.block (s := S2x32768x3) S2x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x4096.size a
  hwx0_2 : ∀ i : grid0.Coords, EltTy.bits .f32 = 32 ∨ (Rect.block (s := S2x4096) S2x512.size (cc0_transform_2 i) (hinb0_2 i)).WholeWords (EltTy.packing .f32)

variable [Facts₀]

def gather_S2x8192x3_S4096x1_S2x4096x3_02_1_n_n_1_1_213 : GatherDims S2x8192x3 S4096x1 S2x4096x3 where
  offsetDims := [0, 2]
  collapsedSliceDims := [1]
  operandBatchingDims := []
  startIndicesBatchingDims := []
  startIndexMap := [1]
  indexVectorDim := 1
  sliceSizes := ![2, 1, 3]
  wf := gather_S2x8192x3_S4096x1_S2x4096x3_02_1_n_n_1_1_213_wf
def dot_S2x512x3_S2x2048x3_S2x512x2048_2_2_1_1_0_0 : DotDims S2x512x3 S2x2048x3 S2x512x2048 where
  lhsContracting := [2]
  rhsContracting := [2]
  lhsNonContracting := [1]
  rhsNonContracting := [1]
  lhsBatch := [0]
  rhsBatch := [0]
  wf := dot_S2x512x3_S2x2048x3_S2x512x2048_2_2_1_1_0_0_wf

abbrev win0_0 : Pipeline.Window sig grid0 :=
  Pipeline.Window.ofSpec (Memref.whole main_v6) S2x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S2x32768x3 : Shape := ⟨3, ![2, 32768, 3]⟩
abbrev S4096 : Shape := ⟨1, ![4096]⟩
abbrev S_ : Shape := ⟨0, ![]⟩
abbrev S4096x1 : Shape := ⟨2, ![4096, 1]⟩
abbrev S2x4096x3 : Shape := ⟨3, ![2, 4096, 3]⟩
abbrev S2x4096 : Shape := ⟨2, ![2, 4096]⟩
abbrev S2x32768 : Shape := ⟨2, ![2, 32768]⟩
abbrev S2x4096x32768 : Shape := ⟨3, ![2, 4096, 32768]⟩
abbrev S2x4096x1 : Shape := ⟨3, ![2, 4096, 1]⟩
abbrev S2x1x32768 : Shape := ⟨3, ![2, 1, 32768]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x32768x3, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S2x4096x3, .f32⟩
  | .hbm, ⟨12, _⟩ => ⟨S2x4096x3, .f32⟩
  | .hbm, ⟨13, _⟩ => ⟨S_, .f32⟩
  | .hbm, ⟨14, _⟩ => ⟨S2x4096, .f32⟩
  | .hbm, ⟨15, _⟩ => ⟨S2x32768x3, .f32⟩
  | .hbm, ⟨16, _⟩ => ⟨S_, .f32⟩
  | .hbm, ⟨17, _⟩ => ⟨S2x32768, .f32⟩
  | .hbm, ⟨18, _⟩ => ⟨S2x4096x32768, .f32⟩
  | .hbm, ⟨19, _⟩ => ⟨S2x4096x1, .f32⟩
  | .hbm, ⟨20, _⟩ => ⟨S2x1x32768, .f32⟩
  | .hbm, ⟨21, _⟩ => ⟨S2x4096x32768, .f32⟩
  | .hbm, ⟨22, _⟩ => ⟨S2x4096x32768, .f32⟩
  | .hbm, ⟨23, _⟩ => ⟨S2x4096x32768, .f32⟩
  | .hbm, ⟨24, _⟩ => ⟨S_, .f32⟩
  | .hbm, ⟨25, _⟩ => ⟨S2x4096x32768, .f32⟩
  | .hbm, ⟨26, _⟩ => ⟨S2x4096x32768, .f32⟩
  | .hbm, ⟨27, _⟩ => ⟨S2x4096x32768, .f32⟩
  | .hbm, ⟨28, _⟩ => ⟨S_, .f32⟩
  | .hbm, ⟨29, _⟩ => ⟨S2x4096x32768, .f32⟩
  | .hbm, ⟨30, _⟩ => ⟨S2x4096x32768, .f32⟩
  | .hbm, ⟨31, _⟩ => ⟨S2x4096x32768, .f32⟩
  | .hbm, ⟨32, _⟩ => ⟨S_, .f32⟩
  | .hbm, ⟨33, _⟩ => ⟨S2x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S2x4096x3_S2x4096_d2 : S2x4096x3.ReducesTo [2] S2x4096
  h_S_ : 0 < S_.numel
  reducesTo_S2x32768x3_S2x32768_d2 : S2x32768x3.ReducesTo [2] S2x32768
  bcast_S2x4096_S2x4096x1_0_1 : S2x4096.BroadcastsInDim S2x4096x1 (![0, 1] : Fin 2 → Fin S2x4096x1.rank)
  bcast_S2x32768_S2x1x32768_0_2 : S2x32768.BroadcastsInDim S2x1x32768 (![0, 2] : Fin 2 → Fin S2x1x32768.rank)
  bcast_S2x4096x1_S2x4096x32768_0_1_2 : S2x4096x1.BroadcastsInDim S2x4096x32768 (![0, 1, 2] : Fin 3 → Fin S2x4096x32768.rank)
  bcast_S2x1x32768_S2x4096x32768_0_1_2 : S2x1x32768.BroadcastsInDim S2x4096x32768 (![0, 1, 2] : Fin 3 → Fin S2x4096x32768.rank)
  bcast_S_S2x4096x32768 : S_.BroadcastsInDim S2x4096x32768 (![] : Fin 0 → Fin S2x4096x32768.rank)
  reducesTo_S2x4096x32768_S2x4096_d2 : S2x4096x32768.ReducesTo [2] S2x4096
  reducesTo_S2x4096_S_d0_1 : S2x4096.ReducesTo [0, 1] S_
  gather_S2x8192x3_S4096x1_S2x4096x3_02_1_n_n_1_1_213_wf : GatherDims.WF S2x8192x3 S4096x1 S2x4096x3 [0, 2] [1] [] [1] [] 1 ![2, 1, 3]
  dot_S2x4096x3_S2x32768x3_S2x4096x32768_2_2_1_1_0_0_wf : DotDims.WF S2x4096x3 S2x32768x3 S2x4096x32768 [2] [2] [1] [1] [0] [0]

variable [Facts₀]

def gather_S2x8192x3_S4096x1_S2x4096x3_02_1_n_n_1_1_213 : GatherDims S2x8192x3 S4096x1 S2x4096x3 where
  offsetDims := [0, 2]
  collapsedSliceDims := [1]
  operandBatchingDims := []
  startIndicesBatchingDims := []
  startIndexMap := [1]
  indexVectorDim := 1
  sliceSizes := ![2, 1, 3]
  wf := gather_S2x8192x3_S4096x1_S2x4096x3_02_1_n_n_1_1_213_wf
def dot_S2x4096x3_S2x32768x3_S2x4096x32768_2_2_1_1_0_0 : DotDims S2x4096x3 S2x32768x3 S2x4096x32768 where
  lhsContracting := [2]
  rhsContracting := [2]
  lhsNonContracting := [1]
  rhsNonContracting := [1]
  lhsBatch := [0]
  rhsBatch := [0]
  wf := dot_S2x4096x3_S2x32768x3_S2x4096x32768_2_2_1_1_0_0_wf

class Facts : Prop extends Facts₀ where

variable [Facts]
-- ==== Proof.KernelPieces.lean ====
/-
  What each control case of the body leaves behind, as values.

  The body's accumulator lives in a scratch block of shape [2, 512] that is carried from one grid point to the next.
  Case A (first target tile of a row block): the scratch is reset to plus infinity and then updated, so it ends at
  the update of the plus-infinity block. Case B (a middle tile): it ends at the update of what the point before left.
  Case C (last tile): the same update, and the output block receives the root of the updated accumulator.
-/
import proofs.«127007_j42795054137807_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- Case A: the scratch ends at the update applied to the plus-infinity block. -/
theorem sout_A (c : Dev nD) (i : grid0.Coords) (arg2 : Memref sig .tc .vmem S2x512x3 .f32) (harg2 : arg2.IsWhole) (arg3 : Memref sig .tc .vmem S2x2048x3 .f32) (harg3 : arg3.IsWhole) (arg4 : Memref sig .tc .vmem S2x512 .f32) (harg4 : arg4.IsWhole) (arg5 : Memref sig .tc .vmem S2x512 .f32) (harg5 : arg5.IsWhole) (hc0 : cond0_0 i) (hc1 : ¬cond0_1 i)
    (x0 : Vec F S2x512x3 .f32) (x1 : Vec F S2x2048x3 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2x512) hz, View.readCov_unit_zero (S := S2x512) _ hz]
  simp only [View.readAt_eq_ld, harg2.read_unread, harg3.read_unread, View.ld_unit_zero (S := S2x512x3) hz3,
    View.ld_unit_zero (S := S2x2048x3) hz3]

/-- Case B: the scratch ends at the update applied to what it held. -/
theorem sout_B (c : Dev nD) (i : grid0.Coords) (arg2 : Memref sig .tc .vmem S2x512x3 .f32) (harg2 : arg2.IsWhole) (arg3 : Memref sig .tc .vmem S2x2048x3 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : ¬cond0_1 i)
    (x0 : Vec F S2x512x3 .f32) (x1 : Vec F S2x2048x3 .f32) (xs0 : Vec F S2x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S2x512x3) hz3,
    View.ld_unit_zero (S := S2x2048x3) hz3, View.ld_unit_zero (S := S2x512) hz]

/-- Case C: the scratch likewise. -/
theorem sout_C (c : Dev nD) (i : grid0.Coords) (arg2 : Memref sig .tc .vmem S2x512x3 .f32) (harg2 : arg2.IsWhole) (arg3 : Memref sig .tc .vmem S2x2048x3 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x512x3 .f32) (x1 : Vec F S2x2048x3 .f32) (xs0 : Vec F S2x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S2x512x3) hz3,
    View.ld_unit_zero (S := S2x2048x3) hz3, View.ld_unit_zero (S := S2x512) hz]

/-- Case C: the output block receives the root of the updated accumulator. -/
theorem out_C (c : Dev nD) (i : grid0.Coords) (arg2 : Memref sig .tc .vmem S2x512x3 .f32) (harg2 : arg2.IsWhole) (arg3 : Memref sig .tc .vmem S2x2048x3 .f32) (harg3 : arg3.IsWhole) (arg4 : Memref sig .tc .vmem S2x512 .f32) (harg4 : arg4.IsWhole) (arg5 : Memref sig .tc .vmem S2x512 .f32) (harg5 : arg5.IsWhole) (hc0 : ¬cond0_0 i) (hc1 : cond0_1 i)
    (x0 : Vec F S2x512x3 .f32) (x1 : Vec F S2x2048x3 .f32) (xs0 : Vec F S2x512 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readCov_unit_zero (S := S2x512) _ hz, View.readAt_eq_ld, harg2.read_unread, harg3.read_unread,
    harg5.read_unread, View.ld_unit_zero (S := S2x512x3) hz3, View.ld_unit_zero (S := S2x2048x3) hz3,
    View.ld_unit_zero (S := S2x512) hz]

end Cert.KernelIdeal.Pieces

end
-- ==== Proof.TileMin.lean ====
/-
  Extended-real facts behind a nearest-neighbour distance taken tile by tile.

  * The square root of the ideal instance (bottom and the negative reals to bottom, a non-negative real to its
    root, top to top) is monotone on the whole linear order of extended reals, so it commutes with a binary
    minimum and hence with the minimum of any finite family seeded with top.
  * The minimum of a family indexed by 32768 positions, seeded with top, can be taken in sixteen consecutive
    tiles of 2048 positions: the running minimum after k tiles (tilesMin f k) starts at top, absorbs one
    tile's minimum per step, and after sixteen steps is the minimum of the whole family.
-/
import Idealize.ShloMosaic.PureOps.Ideal
import Mathlib.Data.Finset.Fold

noncomputable section

namespace Cert.NearestDist

open Idealize.ShloMosaic

/-- The ideal square root is monotone: below zero it is bottom, on the non-negative reals it is the real root, at top it is top. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      simp only [Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- A monotone map of a linear order commutes with the binary minimum. -/
theorem sqrt_min (a b : EReal) : Ideal.sqrt (min a b) = min (Ideal.sqrt a) (Ideal.sqrt b) :=
  sqrt_mono.map_min

/-- Hence the root of a finite minimum seeded with top is the minimum of the roots, seeded with top. -/
theorem fold_min_sqrt {ι : Type*} (s : Finset ι) (f : ι → EReal) :
    s.fold min ⊤ (fun i => Ideal.sqrt (f i)) = Ideal.sqrt (s.fold min ⊤ f) := by
  have h := Finset.fold_hom (op := min) (op' := min) (m := Ideal.sqrt) (s := s) (b := ⊤) (f := f)
    (fun x y => sqrt_min x y)
  rwa [Ideal.sqrt_top] at h

/-- The running minimum over the first k tiles of 2048 positions, seeded with top. -/
def tilesMin (f : Fin 32768 → EReal) (k : ℕ) : EReal :=
  (Finset.univ.filter fun p : Fin 32768 => p.val < k * 2048).fold min ⊤ f

/-- Before any tile the running minimum is the seed. -/
theorem tilesMin_zero (f : Fin 32768 → EReal) : tilesMin f 0 = ⊤ := by
  unfold tilesMin
  rw [Finset.filter_false_of_mem (by intro x _; omega)]
  rfl

/-- Position j of tile k among the 32768 positions (the tile number read modulo sixteen). -/
def tilePos (k : ℕ) (j : Fin 2048) : Fin 32768 :=
  ⟨k % 16 * 2048 + j.val, by have := j.isLt; have := Nat.mod_lt k (show 0 < 16 by decide); omega⟩

/-- One more tile: the running minimum absorbs that tile's own minimum. -/
theorem tilesMin_succ (f : Fin 32768 → EReal) (k : ℕ) (hk : k < 16) :
    tilesMin f (k + 1) = min (tilesMin f k) (Finset.univ.fold min ⊤ fun j : Fin 2048 => f (tilePos k j)) := by
  have hmod : k % 16 = k := Nat.mod_eq_of_lt hk
  refine eq_of_forall_le_iff fun c => ?_
  simp only [tilesMin, Finset.le_fold_min, le_min_iff, Finset.mem_filter, Finset.mem_univ, true_and, le_top,
    true_imp_iff]
  constructor
  · intro h
    exact ⟨fun x hx => h x (by omega), fun j => h (tilePos k j) (by
      have := j.isLt; show k % 16 * 2048 + j.val < (k + 1) * 2048; rw [hmod]; omega)⟩
  · rintro ⟨h1, h2⟩ x hx
    by_cases hlt : x.val < k * 2048
    · exact h1 x hlt
    · have h3 := h2 ⟨x.val - k * 2048, by omega⟩
      have e : tilePos k ⟨x.val - k * 2048, by omega⟩ = x :=
        Fin.ext (by show k % 16 * 2048 + (x.val - k * 2048) = x.val; rw [hmod]; omega)
      rwa [e] at h3

/-- After sixteen tiles the running minimum is the minimum over every position. -/
theorem tilesMin_all (f : Fin 32768 → EReal) : tilesMin f 16 = Finset.univ.fold min ⊤ f := by
  unfold tilesMin
  rw [Finset.filter_true_of_mem (by intro x _; have := x.isLt; omega)]

/-- Two folds over index ranges of equal length agree when their families agree position by position. -/
theorem fold_fin_congr {α : Type*} (op : α → α → α) [Std.Commutative op] [Std.Associative op] (b : α) {n k : ℕ} (hn : n = k)
    (g : Fin n → α) (f : Fin k → α) (h : ∀ i : Fin n, g i = f (i.cast hn)) :
    (Finset.univ : Finset (Fin n)).fold op b g = (Finset.univ : Finset (Fin k)).fold op b f := by
  subst hn
  exact congrArg (fun u => Finset.univ.fold op b u) (funext fun i => h i)

end Cert.NearestDist

end
-- ==== Proof.DistSpec.lean ====
/-
  What both programs compute, as one function of two point clouds.

  P holds 2 x n points of 3 coordinates, T holds 2 x k points. For batch b, point s of P and point p of T,
  sqDist is the squared Euclidean distance written as |x|^2 + |y|^2 - 2 x.y and clamped below at zero; nearestAt
  is the root of the least such value over all of T's 32768 points (seeded with top), that is, the distance from
  the point to its nearest neighbour. The two programs differ only in where the root is taken (TileMin.lean).
-/
import Idealize.ShloMosaic.PureOps.Ideal
import Idealize.ShloMosaic.PureOps.Ideal.Laws
import Idealize.ShloMosaic.Lib.ValueIdx
import proofs.«127007_j42795054137807_1_alg».proof.Proof.TileMin

noncomputable section

namespace Cert.NearestDist

open Idealize.ShloMosaic Idealize.ShloMosaic.ValueIdx

/-- The f32 pattern of plus infinity denotes the top extended real. -/
theorem ofBits_posInf : Ideal.ofBits .f32 0x7F800000#32 = ⊤ := by simp [Ideal.ofBits, Ideal.ieee]

/-- The squared distance between point (b, s) of P and point (b, p) of T, as |x|^2 + |y|^2 - 2 x.y, clamped at zero. -/
def sqDist {n k : Nat} (P : (⟨3, ![2, n, 3]⟩ : Shape).Idx → EReal) (T : (⟨3, ![2, k, 3]⟩ : Shape).Idx → EReal)
    (b : Fin 2) (s : Fin n) (p : Fin k) : EReal :=
  max (((∑ d : Fin 3, P (ix3 b s d) * P (ix3 b s d)) + ∑ d : Fin 3, T (ix3 b p d) * T (ix3 b p d))
      - Ideal.ofBits .f32 0x40000000#32 * ∑ d : Fin 3, P (ix3 b s d) * T (ix3 b p d)) 0

/-- The distance from point (b, s) of P to its nearest point of T. -/
def nearestAt (P : (⟨3, ![2, 4096, 3]⟩ : Shape).Idx → EReal) (T : (⟨3, ![2, 32768, 3]⟩ : Shape).Idx → EReal)
    (b : Fin 2) (s : Fin 4096) : EReal :=
  Ideal.sqrt (Finset.univ.fold min ⊤ (sqDist P T b s))

/-- The same for every point of P, as an array of shape [2, 4096]. -/
def nearest (P : (⟨3, ![2, 4096, 3]⟩ : Shape).Idx → EReal) (T : (⟨3, ![2, 32768, 3]⟩ : Shape).Idx → EReal) :
    (⟨2, ![2, 4096]⟩ : Shape).Idx → EReal :=
  fun i => nearestAt P T (i 0) (i 1)

theorem nearest_ix2 (P : (⟨3, ![2, 4096, 3]⟩ : Shape).Idx → EReal) (T : (⟨3, ![2, 32768, 3]⟩ : Shape).Idx → EReal)
    (b : Fin 2) (s : Fin 4096) : nearest P T (ix2 b s) = nearestAt P T b s := rfl

end Cert.NearestDist

end
-- ==== Proof.KernelTile.lean ====
/-
  The kernel's accumulator update read at an index.

  At one grid point the body holds a block x of 2 x 512 points, a block y of 2 x 2048 points and the accumulator
  acc of shape [2, 512]. It forms, for every pair (r, j), |x_r|^2 + |y_j|^2 - 2 x_r.y_j clamped at zero, takes the
  minimum over j seeded with plus infinity, and stores min(acc, that). So at (b, r) the stored value is the minimum
  of the old accumulator entry and the least clamped squared distance from point r of x to the 2048 points of y.
-/
import proofs.«127007_j42795054137807_1_alg».proof.Proof.Gen.KernelIdeal.Skeleton
import proofs.«127007_j42795054137807_1_alg».proof.Proof.DistSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.NearestDist

/-- A sum over the coordinate axis of the squares of a block of 512-point rows, at row (b, r). -/
theorem sumSq512 (v : FVec Ideal S2x512x3 .f32) (b : Fin 2) (r : Fin 512) :
    multiReduction .add [2] S2x512 (mulf v v) 0x00000000#32 reduces_S2x512x3_S2x512 (.inl rfl) rfl (ix2 b r)
      = ∑ d : Fin 3, v (ix3 b r d) * v (ix3 b r d) := by
  refine (Ideal.multiReduction_add_single (mulf v v) 0x00000000#32 reduces_S2x512x3_S2x512 (.inl rfl) rfl (ix2 b r)).trans ?_
  refine Finset.sum_congr rfl fun (d : Fin 3) _ => ?_
  have e : reduces_S2x512x3_S2x512.lift (ix2 b r) d = ix3 b r d :=
    funext fun a => Fin.ext (by match a with | ⟨0, _⟩ => rfl | ⟨1, _⟩ => rfl | ⟨2, _⟩ => rfl)
  rw [e]; rfl

/-- The same for a block of 2048-point rows. -/
theorem sumSq2048 (v : FVec Ideal S2x2048x3 .f32) (b : Fin 2) (j : Fin 2048) :
    multiReduction .add [2] S2x2048 (mulf v v) 0x00000000#32 reduces_S2x2048x3_S2x2048 (.inl rfl) rfl (ix2 b j)
      = ∑ d : Fin 3, v (ix3 b j d) * v (ix3 b j d) := by
  refine (Ideal.multiReduction_add_single (mulf v v) 0x00000000#32 reduces_S2x2048x3_S2x2048 (.inl rfl) rfl (ix2 b j)).trans ?_
  refine Finset.sum_congr rfl fun (d : Fin 3) _ => ?_
  have e : reduces_S2x2048x3_S2x2048.lift (ix2 b j) d = ix3 b j d :=
    funext fun a => Fin.ext (by match a with | ⟨0, _⟩ => rfl | ⟨1, _⟩ => rfl | ⟨2, _⟩ => rfl)
  rw [e]; rfl

/-- A minimum over the last axis of a [2, 512, 2048] block seeded with plus infinity, at row (b, r). -/
theorem minRow (w : FVec Ideal S2x512x2048 .f32) (b : Fin 2) (r : Fin 512) :
    multiReduction .minimumf [2] S2x512 w 0x7F800000#32 reduces_S2x512x2048_S2x512 (.inl rfl) rfl (ix2 b r)
      = Finset.univ.fold min ⊤ (fun j : Fin 2048 => w (ix3 b r j)) := by
  refine (multiReduction_minimumf_eq_fold w 0x7F800000#32 reduces_S2x512x2048_S2x512 (.inl rfl) rfl (ix2 b r)).trans ?_
  refine (reduces_S2x512x2048_S2x512.fold_filter_drop_single FloatOps.minimumf (FloatOps.ofBits .f32 0x7F800000#32) w (ix2 b r)).trans ?_
  have e : ∀ j : Fin 2048, reduces_S2x512x2048_S2x512.lift (ix2 b r) j = ix3 b r j := fun j =>
    funext fun a => Fin.ext (by match a with | ⟨0, _⟩ => rfl | ⟨1, _⟩ => rfl | ⟨2, _⟩ => rfl)
  show Finset.univ.fold min (Ideal.ofBits .f32 0x7F800000#32) (fun j : Fin 2048 => w (reduces_S2x512x2048_S2x512.lift (ix2 b r) j)) = _
  rw [ofBits_posInf]
  simp only [e]

/-- A per-row value [2, 512] laid along the last axis of the [2, 512, 2048] block: entry (b, r, j) is the value at (b, r). -/
theorem colCast (u : FVec Ideal S2x512 .f32) (b : Fin 2) (r : Fin 512) (j : Fin 2048) :
    broadcastTo S2x512x2048 (shapeCast S2x512x1 u shapeCasts_S2x512_S2x512x1) broadcasts_S2x512x1_S2x512x2048 (ix3 b r j)
      = u (ix2 b r) := by
  refine (broadcastTo_apply _ broadcasts_S2x512x1_S2x512x2048 (ix3 b r j) (ix3 b r (0 : Fin 1)) (fun a => ?_)).trans ?_
  · match a with
    | ⟨0, _⟩ => show b.val = if (2 : Nat) = 1 then 0 else b.val; rw [if_neg (by decide)]
    | ⟨1, _⟩ => show r.val = if (512 : Nat) = 1 then 0 else r.val; rw [if_neg (by decide)]
    | ⟨2, _⟩ => show 0 = if (1 : Nat) = 1 then 0 else j.val; rw [if_pos rfl]
  · refine shapeCast_apply u shapeCasts_S2x512_S2x512x1 (ix3 b r (0 : Fin 1)) (ix2 b r) ?_
    rw [Shape.rowMajor_val_two, Shape.rowMajor_val_three]
    show b.val * 512 + r.val = (b.val * 512 + r.val) * 1 + 0
    omega

/-- A per-column value [2, 2048] laid along the middle axis: entry (b, r, j) is the value at (b, j). -/
theorem rowCast (u : FVec Ideal S2x2048 .f32) (b : Fin 2) (r : Fin 512) (j : Fin 2048) :
    broadcastTo S2x512x2048 (shapeCast S2x1x2048 u shapeCasts_S2x2048_S2x1x2048) broadcasts_S2x1x2048_S2x512x2048 (ix3 b r j)
      = u (ix2 b j) := by
  refine (broadcastTo_apply _ broadcasts_S2x1x2048_S2x512x2048 (ix3 b r j) (ix3 b (0 : Fin 1) j) (fun a => ?_)).trans ?_
  · match a with
    | ⟨0, _⟩ => show b.val = if (2 : Nat) = 1 then 0 else b.val; rw [if_neg (by decide)]
    | ⟨1, _⟩ => show 0 = if (1 : Nat) = 1 then 0 else r.val; rw [if_pos rfl]
    | ⟨2, _⟩ => show j.val = if (2048 : Nat) = 1 then 0 else j.val; rw [if_neg (by decide)]
  · refine shapeCast_apply u shapeCasts_S2x2048_S2x1x2048 (ix3 b (0 : Fin 1) j) (ix2 b j) ?_
    rw [Shape.rowMajor_val_two, Shape.rowMajor_val_three]
    show b.val * 2048 + j.val = (b.val * 1 + 0) * 2048 + j.val
    omega

/-! The batched contraction over the three coordinates: where its operand indices sit. -/

theorem lhs_0 (i : S2x512x2048.Idx) (q : dot_S2x512x3_S2x2048x3_S2x512x2048_2_2_1_1_0_0.contr.Idx) :
    (dot_S2x512x3_S2x2048x3_S2x512x2048_2_2_1_1_0_0.lhsIdx i q 0).val = (i 0).val := by
  unfold DotDims.lhsIdx
  rw [dif_pos (show (0 : Fin S2x512x3.rank) ∈ dot_S2x512x3_S2x2048x3_S2x512x2048_2_2_1_1_0_0.lhsBatch by decide)]
  rfl
theorem lhs_1 (i : S2x512x2048.Idx) (q : dot_S2x512x3_S2x2048x3_S2x512x2048_2_2_1_1_0_0.contr.Idx) :
    (dot_S2x512x3_S2x2048x3_S2x512x2048_2_2_1_1_0_0.lhsIdx i q 1).val = (i 1).val := by
  unfold DotDims.lhsIdx
  rw [dif_neg (show ¬(1 : Fin S2x512x3.rank) ∈ dot_S2x512x3_S2x2048x3_S2x512x2048_2_2_1_1_0_0.lhsBatch by decide), dif_pos (show (1 : Fin S2x512x3.rank) ∈ dot_S2x512x3_S2x2048x3_S2x512x2048_2_2_1_1_0_0.lhsNonContracting by decide)]
  rfl
theorem lhs_2 (i : S2x512x2048.Idx) (q : dot_S2x512x3_S2x2048x3_S2x512x2048_2_2_1_1_0_0.contr.Idx) :
    (dot_S2x512x3_S2x2048x3_S2x512x2048_2_2_1_1_0_0.lhsIdx i q 2).val = (q ⟨0, by decide⟩).val :=
  dot_S2x512x3_S2x2048x3_S2x512x2048_2_2_1_1_0_0.lhsIdx_val_of_single rfl i q
theorem rhs_0 (i : S2x512x2048.Idx) (q : dot_S2x512x3_S2x2048x3_S2x512x2048_2_2_1_1_0_0.contr.Idx) :
    (dot_S2x512x3_S2x2048x3_S2x512x2048_2_2_1_1_0_0.rhsIdx i q 0).val = (i 0).val := by
  unfold DotDims.rhsIdx
  rw [dif_pos (show (0 : Fin S2x2048x3.rank) ∈ dot_S2x512x3_S2x2048x3_S2x512x2048_2_2_1_1_0_0.rhsBatch by decide)]
  rfl
theorem rhs_1 (i : S2x512x2048.Idx) (q : dot_S2x512x3_S2x2048x3_S2x512x2048_2_2_1_1_0_0.contr.Idx) :
    (dot_S2x512x3_S2x2048x3_S2x512x2048_2_2_1_1_0_0.rhsIdx i q 1).val = (i 2).val := by
  unfold DotDims.rhsIdx
  rw [dif_neg (show ¬(1 : Fin S2x2048x3.rank) ∈ dot_S2x512x3_S2x2048x3_S2x512x2048_2_2_1_1_0_0.rhsBatch by decide), dif_pos (show (1 : Fin S2x2048x3.rank) ∈ dot_S2x512x3_S2x2048x3_S2x512x2048_2_2_1_1_0_0.rhsNonContracting by decide)]
  rfl
theorem rhs_2 (i : S2x512x2048.Idx) (q : dot_S2x512x3_S2x2048x3_S2x512x2048_2_2_1_1_0_0.contr.Idx) :
    (dot_S2x512x3_S2x2048x3_S2x512x2048_2_2_1_1_0_0.rhsIdx i q 2).val = (q ⟨0, by decide⟩).val :=
  dot_S2x512x3_S2x2048x3_S2x512x2048_2_2_1_1_0_0.rhsIdx_val_of_single rfl i q

/-- The contraction into a zero accumulator at (b, r, j): the inner product of point r of the first block and point j of the second. -/
theorem dotRows (v : FVec Ideal S2x512x3 .f32) (w : FVec Ideal S2x2048x3 .f32) (b : Fin 2) (r : Fin 512) (j : Fin 2048) :
    matmul dot_S2x512x3_S2x2048x3_S2x512x2048_2_2_1_1_0_0 none v w (constant S2x512x2048 .f32 0x00000000#32) (ix3 b r j)
      = ∑ d : Fin 3, v (ix3 b r d) * w (ix3 b j d) := by
  refine (Ideal.matmul_constant_zero_apply dot_S2x512x3_S2x2048x3_S2x512x2048_2_2_1_1_0_0 none v w (ix3 b r j)).trans ?_
  rw [← Equiv.sum_comp (ValueIdx.contrEquiv1 dot_S2x512x3_S2x2048x3_S2x512x2048_2_2_1_1_0_0 3 rfl rfl).symm]
  refine Finset.sum_congr rfl fun k _ => ?_
  have hk := ValueIdx.contrEquiv1_symm_val dot_S2x512x3_S2x2048x3_S2x512x2048_2_2_1_1_0_0 3 rfl rfl k
  have el : dot_S2x512x3_S2x2048x3_S2x512x2048_2_2_1_1_0_0.lhsIdx (ix3 b r j) ((ValueIdx.contrEquiv1 dot_S2x512x3_S2x2048x3_S2x512x2048_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S2x512x3_S2x2048x3_S2x512x2048_2_2_1_1_0_0.rhsIdx (ix3 b r j) ((ValueIdx.contrEquiv1 dot_S2x512x3_S2x2048x3_S2x512x2048_2_2_1_1_0_0 3 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  rw [el, er]

/-- The update's value at (b, r): the old accumulator entry against the least clamped squared distance from point r
    of the first block to the 2048 points of the second. -/
theorem pay2_apply (x0 : Vec Ideal S2x512x3 .f32) (x1 : Vec Ideal S2x2048x3 .f32) (acc : Vec Ideal S2x512 .f32)
    (b : Fin 2) (r : Fin 512) :
    k0_pay2 (F := Ideal) x0 x1 acc (ix2 b r) = min (acc (ix2 b r)) (Finset.univ.fold min ⊤ (sqDist x0 x1 b r)) := by
  unfold k0_pay2
  simp only [shapeCast_self, minimumf_apply]
  refine congrArg (min (acc (ix2 b r))) ?_
  refine (minRow _ b r).trans ?_
  refine congrArg (fun f => Finset.univ.fold min ⊤ f) (funext fun j => ?_)
  simp only [maximumf_apply, subf_apply, addf_apply, mulf_apply, broadcast_apply]
  unfold sqDist
  refine congrArg₂ max (congrArg₂ (· - ·) (congrArg₂ (· + ·) ?_ ?_) (congrArg₂ (· * ·) rfl ?_)) ?_
  · exact (colCast _ b r j).trans (sumSq512 x0 b r)
  · exact (rowCast _ b r j).trans (sumSq2048 x1 b j)
  · exact dotRows x0 x1 b r j
  · exact Ideal.ofBits_zero_f32

end Cert.KernelIdeal.Tile

end
-- ==== Proof.KernelAcc.lean ====
/-
  The accumulator across the grid.

  The grid has 8 x 16 points; point n works on row block n / 16 of the picked points (512 rows) and on target tile
  n % 16 (2048 targets). The scratch accumulator carried from point to point therefore holds, after point n and at
  row r of its block, the running minimum of the clamped squared distances from picked point (n / 16) * 512 + r to
  the first n % 16 + 1 target tiles: it is reset at the first tile of every row block and absorbs one tile per
  point. At the last tile of a row block the running minimum is the minimum over all targets, and the output block
  receives its root: the nearest-neighbour distance.
-/
import proofs.«127007_j42795054137807_1_alg».proof.Proof.Gen.KernelIdeal.Frame
import proofs.«127007_j42795054137807_1_alg».proof.Proof.KernelPieces
import proofs.«127007_j42795054137807_1_alg».proof.Proof.KernelTile
import proofs.«127007_j42795054137807_1_alg».proof.Proof.DistSpec
import Idealize.ShloMosaic.Lib.Pipeline.Value

noncomputable section

namespace Cert.KernelIdeal.Acc

open Cert.KernelIdeal Cert.KernelIdeal.Gen Idealize.ShloMosaic Idealize.ShloMosaic.TcCoe Idealize.SL.Sem
open Idealize.ShloMosaic.ValueIdx Cert.NearestDist
open Idealize.ShloMosaic.Pipeline (Dat)

variable (m : (ℓ : Loc nD τ sig) → Buf (Elt Ideal) ℓ)

/-- The picked points and the targets as the region finds them, and the two input blocks at a point. -/
abbrev picked (c : Dev nD) : Vec Ideal S2x4096x3 .f32 := V m c main_v6
abbrev targets (c : Dev nD) : Vec Ideal S2x32768x3 .f32 := V m c main_arg1
abbrev xblk (c : Dev nD) (t : Fin cfg0.N) : Vec Ideal S2x512x3 .f32 := iblk m c 0 t
abbrev yblk (c : Dev nD) (t : Fin cfg0.N) : Vec Ideal S2x2048x3 .f32 := iblk m c 1 t

/-- Which block each window is on at point t: the picked points' and the output's row block is t / 16, the targets' tile t % 16. -/
theorem idx_facts : ∀ t : Fin cfg0.N, win0_0.index t (0 : Fin 3) = 0 ∧ win0_0.index t (1 : Fin 3) = t.val / 16
    ∧ win0_0.index t (2 : Fin 3) = 0 ∧ win0_1.index t (0 : Fin 3) = 0 ∧ win0_1.index t (1 : Fin 3) = t.val % 16
    ∧ win0_1.index t (2 : Fin 3) = 0 ∧ win0_2.index t (0 : Fin 2) = 0 ∧ win0_2.index t (1 : Fin 2) = t.val / 16 :=
  (by decide +kernel : ∀ t : Fin grid0.N, _)

/-- Row r of the row block point n works on, among the 4096 picked points. -/
def rowPos (n : ℕ) (r : Fin 512) : Fin 4096 :=
  ⟨n / 16 % 8 * 512 + r.val, by have := r.isLt; have := Nat.mod_lt (n / 16) (show 0 < 8 by decide); omega⟩

/-- The first input block at point t is rows (t / 16) * 512 ... of the picked points. -/
theorem xblk_apply (c : Dev nD) (t : Fin cfg0.N) (b : Fin 2) (r : Fin 512) (d : Fin 3) :
    xblk m c t (ix3 b r d) = picked m c (ix3 b (rowPos t.val r) d) := by
  obtain ⟨e0, e1, e2, -⟩ := idx_facts t
  have hN : t.val < 128 := lt_of_lt_of_eq t.isLt (show cfg0.N = 128 from N_0)
  show iblk m c 0 t (ix3 b r d) = _
  unfold iblk
  rw [View.read_apply]
  show V m c main_v6 _ = V m c main_v6 _
  refine congrArg (V m c main_v6) (funext fun a => Fin.ext ?_)
  match a with
  | ⟨0, _⟩ => show win0_0.index t (0 : Fin 3) * 2 + 1 * b.val = b.val; rw [e0]; omega
  | ⟨1, _⟩ => show win0_0.index t (1 : Fin 3) * 512 + 1 * r.val = t.val / 16 % 8 * 512 + r.val; rw [e1]; omega
  | ⟨2, _⟩ => show win0_0.index t (2 : Fin 3) * 3 + 1 * d.val = d.val; rw [e2]; omega

/-- The second input block at point t is targets (t % 16) * 2048 ... -/
theorem yblk_apply (c : Dev nD) (t : Fin cfg0.N) (b : Fin 2) (j : Fin 2048) (d : Fin 3) :
    yblk m c t (ix3 b j d) = targets m c (ix3 b (tilePos t.val j) d) := by
  obtain ⟨-, -, -, e0, e1, e2, -⟩ := idx_facts t
  show iblk m c 1 t (ix3 b j d) = _
  unfold iblk
  rw [View.read_apply]
  show V m c main_arg1 _ = V m c main_arg1 _
  refine congrArg (V m c main_arg1) (funext fun a => Fin.ext ?_)
  match a with
  | ⟨0, _⟩ => show win0_1.index t (0 : Fin 3) * 2 + 1 * b.val = b.val; rw [e0]; omega
  | ⟨1, _⟩ => show win0_1.index t (1 : Fin 3) * 2048 + 1 * j.val = t.val % 16 * 2048 + j.val; rw [e1]; omega
  | ⟨2, _⟩ => show win0_1.index t (2 : Fin 3) * 3 + 1 * d.val = d.val; rw [e2]; omega

/-- So the clamped squared distance within the two blocks is the one between the arrays' points they hold. -/
theorem sqDist_blk (c : Dev nD) (t : Fin cfg0.N) (b : Fin 2) (r : Fin 512) (j : Fin 2048) :
    sqDist (xblk m c t) (yblk m c t) b r j = sqDist (picked m c) (targets m c) b (rowPos t.val r) (tilePos t.val j) := by
  unfold sqDist
  simp only [xblk_apply, yblk_apply]

/-- The block the reset stores is plus infinity everywhere. -/
theorem pay1_apply (i : S2x512.Idx) : k0_pay1 (F := Ideal) i = ⊤ := by
  unfold k0_pay1
  simp only [shapeCast_self, broadcast_apply]
  exact ofBits_posInf

/-- THE INVARIANT: after point n the carried accumulator, at row r of its block, is the running minimum over the
    first n % 16 + 1 target tiles of the clamped squared distances from the picked point that row holds. -/
theorem acc_eq (c : Dev nD) : ∀ (n : ℕ) (h : n < cfg0.N) (b : Fin 2) (r : Fin 512),
    (outsAt0 m c n h).2 (ix2 b r) = tilesMin (sqDist (picked m c) (targets m c) b (rowPos n r)) (n % 16 + 1)
  | 0, h, b, r => by
    rw [outsAt0_A m c ⟨0, h⟩ rfl (by show ¬(0 % 16 = 15); decide)]
    dsimp only
    rw [Pieces.sout_A]
    refine (Tile.pay2_apply _ _ _ b r).trans ?_
    rw [pay1_apply, tilesMin_succ _ 0 (by decide), tilesMin_zero]
    refine congrArg (min ⊤) (congrArg (fun f => Finset.univ.fold min ⊤ f) (funext fun j => ?_))
    exact sqDist_blk m c ⟨0, h⟩ b r j
  | n + 1, h, b, r => by
    have hN : n + 1 < 128 := lt_of_lt_of_eq h (show cfg0.N = 128 from N_0)
    by_cases h0 : (n + 1) % 16 = 0
    · have h1 : ¬(n + 1) % 16 = 15 := by omega
      rw [outsAt0_A m c ⟨n + 1, h⟩ h0 h1]
      dsimp only
      rw [Pieces.sout_A]
      refine (Tile.pay2_apply _ _ _ b r).trans ?_
      rw [pay1_apply, h0, tilesMin_succ _ 0 (by decide), tilesMin_zero]
      refine congrArg (min ⊤) (congrArg (fun f => Finset.univ.fold min ⊤ f) (funext fun j => ?_))
      refine (sqDist_blk m c ⟨n + 1, h⟩ b r j).trans ?_
      have ej : tilePos (n + 1) j = tilePos 0 j := Fin.ext (by
        show (n + 1) % 16 * 2048 + j.val = 0 % 16 * 2048 + j.val; rw [h0])
      show sqDist _ _ b (rowPos (n + 1) r) (tilePos (n + 1) j) = _
      rw [ej]
    · have ih := acc_eq c n (Nat.lt_of_succ_lt h) b r
      have hrow : rowPos (n + 1) r = rowPos n r := Fin.ext (by
        show (n + 1) / 16 % 8 * 512 + r.val = n / 16 % 8 * 512 + r.val
        have : (n + 1) / 16 = n / 16 := by omega
        rw [this])
      have hk : (n + 1) % 16 + 1 = (n % 16 + 1) + 1 := by omega
      have hlt : n % 16 + 1 < 16 := by omega
      have etile : ∀ j : Fin 2048, tilePos (n + 1) j = tilePos (n % 16 + 1) j := fun j => Fin.ext (by
        show (n + 1) % 16 * 2048 + j.val = (n % 16 + 1) % 16 * 2048 + j.val
        have : (n + 1) % 16 = (n % 16 + 1) % 16 := by omega
        rw [this])
      have hgoal : min ((outsAt0 m c n (Nat.lt_of_succ_lt h)).2 (ix2 b r))
            (Finset.univ.fold min ⊤ (sqDist (xblk m c ⟨n + 1, h⟩) (yblk m c ⟨n + 1, h⟩) b r))
          = tilesMin (sqDist (picked m c) (targets m c) b (rowPos (n + 1) r)) ((n + 1) % 16 + 1) := by
        rw [hk, tilesMin_succ _ (n % 16 + 1) hlt, hrow, ih]
        refine congrArg (min _) (congrArg (fun f => Finset.univ.fold min ⊤ f) (funext fun j => ?_))
        refine (sqDist_blk m c ⟨n + 1, h⟩ b r j).trans ?_
        show sqDist _ _ b (rowPos (n + 1) r) (tilePos (n + 1) j) = _
        rw [hrow, etile j]
      by_cases h1 : (n + 1) % 16 = 15
      · rw [outsAt0_C m c ⟨n + 1, h⟩ h0 h1]
        dsimp only
        rw [Pieces.sout_C]
        exact (Tile.pay2_apply _ _ _ b r).trans hgoal
      · rw [outsAt0_B m c ⟨n + 1, h⟩ h0 h1]
        dsimp only
        rw [Pieces.sout_B]
        exact (Tile.pay2_apply _ _ _ b r).trans hgoal

/-- The root the last tile's point stores, entry by entry. -/
theorem pay3_apply (v : Vec Ideal S2x512 .f32) (i : S2x512.Idx) : k0_pay3 (F := Ideal) v i = Ideal.sqrt (v i) := rfl

/-- At the last tile of a row block the output block holds, at row r, the nearest-neighbour distance of the picked
    point that row holds. -/
theorem out_eq (c : Dev nD) (t : Fin cfg0.N) (h1 : t.val % 16 = 15) (b : Fin 2) (r : Fin 512) :
    (outsAt0 m c t.val t.isLt).1 (ix2 b r) = nearestAt (picked m c) (targets m c) b (rowPos t.val r) := by
  have h0 : ¬t.val % 16 = 0 := by omega
  have hs := acc_eq m c t.val t.isLt b r
  rw [outsAt0_C m c t h0 h1] at hs ⊢
  dsimp only at hs ⊢
  rw [Pieces.sout_C] at hs
  rw [Pieces.out_C, pay3_apply, hs, h1, tilesMin_all]
  rfl

end Cert.KernelIdeal.Acc

end
-- ==== Proof.KernelFinal.lean ====
/-
  From the output blocks to the program's result.

  Only the last tile's point of each row block writes its output block back, and those eight blocks tile the
  [2, 4096] result of the kernel call, so the array ends holding the nearest-neighbour distance of every picked
  point. Around the call the program picks the points (indices below zero counted from the end, then a gather) and
  averages the 8192 distances.
-/
import proofs.«127007_j42795054137807_1_alg».proof.Proof.KernelAcc
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Cert.NearestDist Cert.KernelIdeal.Acc
open Idealize.ShloMosaic.Pipeline (Dat)

variable (m : (ℓ : Loc nD τ sig) → Buf (Elt Ideal) ℓ) (ρ : Dev nD → PrngReg)

/-- What the kernel call's result array ends holding: every picked point's nearest-neighbour distance. -/
abbrev result (c : Dev nD) : Buf (Elt Ideal) ((c : Thread nD τ).loc main_v7) := nearest (picked m c) (targets m c)

/-- A flushing point writes back rows (t / 16) * 512 ... of any array that holds, at those rows, what the point's
    output block holds. -/
theorem flushed_eq_of (c : Dev nD) (t : Fin cfg0.N) (G : Vec Ideal S2x4096 .f32)
    (hG : ∀ (b : Fin 2) (r : Fin 512), (outsAt0 m c t.val t.isLt).1 (ix2 b r) = G (ix2 b (rowPos t.val r))) :
    (dats m 0 c).flushed 2 t = ((cfg0.win 2).blk t).view.read (Elt Ideal) G := by
  obtain ⟨-, -, -, -, -, -, e0, e1⟩ := idx_facts t
  have hN : t.val < 128 := lt_of_lt_of_eq t.isLt (show cfg0.N = 128 from N_0)
  show (cfg0.win 2).cut (grid0.coords t) ((dats m 0 c).after 2 t) = _
  rw [after0_2]
  funext y
  rw [View.read_apply]
  show (outsAt0 m c t.val t.isLt).1 ((cfg0.win 2).xinj (grid0.coords t) y) = _
  have hy0 : (y 0).val < 2 := (y 0).isLt
  have hy1 : (y 1).val < 512 := (y 1).isLt
  have ex : (cfg0.win 2).xinj (grid0.coords t) y = ix2 (⟨(y 0).val, hy0⟩ : Fin 2) (⟨(y 1).val, hy1⟩ : Fin 512) :=
    funext fun a => Fin.ext (by match a with | ⟨0, _⟩ => rfl | ⟨1, _⟩ => rfl)
  have eemb : ((cfg0.win 2).blk t).view.emb y
      = ix2 (⟨(y 0).val, hy0⟩ : Fin 2) (rowPos t.val (⟨(y 1).val, hy1⟩ : Fin 512)) := funext fun a => Fin.ext (by
    match a with
    | ⟨0, _⟩ => show win0_2.index t (0 : Fin 2) * 2 + 1 * (y 0).val = (y 0).val; rw [e0]; omega
    | ⟨1, _⟩ => show win0_2.index t (1 : Fin 2) * 512 + 1 * (y 1).val = t.val / 16 % 8 * 512 + (y 1).val; rw [e1]; omega)
  rw [ex, eemb]
  exact hG _ _

/-- At a flushing point that is the block of nearest-neighbour distances. -/
theorem flushed_eq (c : Dev nD) (t : Fin cfg0.N) (hf : (cfg0.win 2).flush t = true) :
    (dats m 0 c).flushed 2 t = ((cfg0.win 2).blk t).view.read (Elt Ideal) (result m c) :=
  flushed_eq_of m c t (nearest (picked m c) (targets m c)) fun b r =>
    (out_eq m c t ((flush0_2 t).mp hf) b r).trans (nearest_ix2 (picked m c) (targets m c) b (rowPos t.val r)).symm

/-- The eight flushed blocks tile the array. -/
theorem final (c : Dev nD) : (dats m 0 c).arrAt 2 cfg0.N = result m c :=
  (dats m 0 c).arrAt_eq_of_cover 2 (result m c) (flushed_eq m c) fun i => by
    have hN : cfg0.N = 128 := N_0
    have hi0 : (i 0 : Nat) < 2 := (i 0).isLt
    have hi1 : (i 1 : Nat) < 4096 := (i 1).isLt
    have hlt : (i 1 : Nat) / 512 * 16 + 15 < cfg0.N := by rw [hN]; omega
    obtain ⟨-, -, -, -, -, -, e0, e1⟩ := idx_facts ⟨(i 1 : Nat) / 512 * 16 + 15, hlt⟩
    refine ⟨⟨(i 1 : Nat) / 512 * 16 + 15, hlt⟩, (flush0_2 _).mpr (by show ((i 1 : Nat) / 512 * 16 + 15) % 16 = 15; omega), ?_⟩
    show i ∈ ((View.whole main_v7).slice (win0_2.rect ⟨(i 1 : Nat) / 512 * 16 + 15, hlt⟩)).set
    rw [View.set_slice_whole, Rect.mem_set_unit]
    intro a
    match a with
    | ⟨0, _⟩ =>
      show win0_2.index ⟨(i 1 : Nat) / 512 * 16 + 15, hlt⟩ (0 : Fin 2) * 2 ≤ (i 0 : Nat)
        ∧ (i 0 : Nat) < win0_2.index ⟨(i 1 : Nat) / 512 * 16 + 15, hlt⟩ (0 : Fin 2) * 2 + 2
      rw [e0]; omega
    | ⟨1, _⟩ =>
      show win0_2.index ⟨(i 1 : Nat) / 512 * 16 + 15, hlt⟩ (1 : Fin 2) * 512 ≤ (i 1 : Nat)
        ∧ (i 1 : Nat) < win0_2.index ⟨(i 1 : Nat) / 512 * 16 + 15, hlt⟩ (1 : Fin 2) * 512 + 512
      rw [e1]
      show ((i 1 : Nat) / 512 * 16 + 15) / 16 * 512 ≤ (i 1 : Nat) ∧ (i 1 : Nat) < ((i 1 : Nat) / 512 * 16 + 15) / 16 * 512 + 512
      omega

/-- The picked points: entry idx[s] of the point axis, an index below zero counted from the end. -/
theorem picked_eq (c : Dev nD) :
    picked m c = Host.gather gather_S2x8192x3_S4096x1_S2x4096x3_02_1_n_n_1_1_213 (m ((c : Thread nD τ).loc main_arg0))
      (broadcastInDim S4096x1 ![0] bcast_S4096_S4096x1_0
        (select (cmpi .slt (m ((c : Thread nD τ).loc main_arg2)) (broadcastInDim S4096 ![] bcast_S_S4096 (constantI S_ 32 0#32)))
          (addi (m ((c : Thread nD τ).loc main_arg2)) (broadcastInDim S4096 ![] bcast_S_S4096 (constantI S_ 32 8192#32)))
          (m ((c : Thread nD τ).loc main_arg2)))) := by
  show StableHlo.after hostOps0 (fun b => m (c, b)) (Proc.devRef .tc main_v6) = _
  after_results

/-- The program's result from the kernel call's array: the mean over its 8192 entries. -/
theorem tail_eq (c : Dev nD) :
    Pipeline.afterTail₀ cfgs (dats m) 0 (V0 m) [hostOps1] c main_v9
      = Host.divf (F := Ideal) (Host.reduceAdd (F := Ideal) (result m c) (constant (F := Ideal) S_ .f32 0x00000000#32) reducesTo_S2x4096_S_d0_1 h_S_)
          (constant (F := Ideal) S_ .f32 0x46000000#32) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v7)
      = result m c := (Pipeline.withArrays_arr spec0 launch0.win.arr_inj c _ _ 2).trans (final m c)
  rw [e]

/-- The kernel program's run, read: its result is the mean of the nearest-neighbour distances, its arguments unchanged. -/
theorem run : θ_run defs (onTc (τ := τ) (main (F := Ideal))) ⟨m, fun _ => 0, ρ⟩ fun r => ∀ c : Dev nD,
      r.2.mem ((c : Thread nD τ).loc main_v9)
        = Host.divf (F := Ideal) (Host.reduceAdd (F := Ideal) (result m c) (constant (F := Ideal) S_ .f32 0x00000000#32) reducesTo_S2x4096_S_d0_1 h_S_)
            (constant (F := Ideal) S_ .f32 0x46000000#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v9 (Pipeline.mem_restRefs_of main_v9 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Final

end
-- ==== Proof.RefNearest.lean ====
/-
  The reference's row minima are the nearest-neighbour distances.

  The reference forms the clamped squared distance |x|^2 + |y|^2 - 2 x.y for every pair of a picked point and a
  target point, takes its root, and reduces with a minimum seeded with plus infinity over all 32768 target points.
  Since the root commutes with such a minimum (TileMin.lean), the result at (b, s) is the root of the least clamped
  squared distance: nearestAt.
-/
import proofs.«127007_j42795054137807_1_alg».proof.Proof.Gen.ReferenceIdeal.Read
import proofs.«127007_j42795054137807_1_alg».proof.Proof.DistSpec
import Idealize.ShloMosaic.PureOps.Reduce
import Idealize.ShloMosaic.PureOps.Ideal.Laws
import Idealize.ShloMosaic.Lib.ValueIdx

noncomputable section

namespace Cert.ReferenceIdeal.Nearest

open Cert.ReferenceIdeal Cert.ReferenceIdeal.Gen Cert.ReferenceIdeal.Read Idealize.ShloMosaic Idealize.ShloMosaic.ValueIdx
open Cert.NearestDist

/-- The clamped squared distance the reference forms at (b, s, p), over the picked points and the targets. -/
theorem clamped_apply (x0 : (⟨S2x8192x3, .f32⟩ : BufTy).Contents (Elt Ideal)) (x1 : (⟨S2x32768x3, .f32⟩ : BufTy).Contents (Elt Ideal))
    (x2 : (⟨S4096, .i32⟩ : BufTy).Contents (Elt Ideal)) (b : Fin 2) (s : Fin 4096) (p : Fin 32768) :
    val_main_v21 (F := Ideal) x0 x1 x2 (ix3 b s p) = sqDist (val_main_v6 (F := Ideal) x0 x2) x1 b s p := by
  have e8 : ∀ k : Fin 3, idx_main_v8 (idx_main_v12 (idx_main_v14 (ix3 b s p))) k = ix3 b s k := fun k =>
    funext fun a => Fin.ext (by match a with | ⟨0, _⟩ => rfl | ⟨1, _⟩ => rfl | ⟨2, _⟩ => rfl)
  have e10 : ∀ k : Fin 3, idx_main_v10 (idx_main_v13 (idx_main_v15 (ix3 b s p))) k = ix3 b p k := fun k =>
    funext fun a => Fin.ext (by match a with | ⟨0, _⟩ => rfl | ⟨1, _⟩ => rfl | ⟨2, _⟩ => rfl)
  have el : ∀ k : Fin 3, lidx_main_v11 (ix3 b s p) k = ix3 b s k := fun k =>
    funext fun a => Fin.ext (by match a with | ⟨0, _⟩ => rfl | ⟨1, _⟩ => rfl | ⟨2, _⟩ => rfl)
  have er : ∀ k : Fin 3, ridx_main_v11 (ix3 b s p) k = ix3 b p k := fun k =>
    funext fun a => Fin.ext (by match a with | ⟨0, _⟩ => rfl | ⟨1, _⟩ => rfl | ⟨2, _⟩ => rfl)
  rw [val_main_v21_apply, val_main_v19_apply, val_main_v16_apply, val_main_v18_apply, val_main_v14_apply, val_main_v15_apply,
    val_main_v12_apply, val_main_v13_apply, val_main_v8_apply, val_main_v10_apply, val_main_v11_apply, val_main_v17_apply,
    val_main_v20_apply]
  simp only [val_main_v7_apply, val_main_v9_apply, val_main_cst_apply, val_main_cst_1_apply, val_main_cst_2_apply,
    val_main_cst_3_apply, e8, e10, el, er, Ideal.maximumf_def, Ideal.subf_def, Ideal.addf_def, Ideal.mulf_def, Ideal.ofBits_def,
    Ideal.ofBits_zero_f32, zero_add]
  rfl

/-- The reference's minimum over the target axis, at every (b, s), is the nearest-neighbour distance. -/
theorem nearest_eq (x0 : (⟨S2x8192x3, .f32⟩ : BufTy).Contents (Elt Ideal)) (x1 : (⟨S2x32768x3, .f32⟩ : BufTy).Contents (Elt Ideal))
    (x2 : (⟨S4096, .i32⟩ : BufTy).Contents (Elt Ideal)) :
    val_main_v23 (F := Ideal) x0 x1 x2 = nearest (val_main_v6 (F := Ideal) x0 x2) x1 := by
  funext i
  obtain ⟨b, s, rfl⟩ : ∃ (b : Fin 2) (s : Fin 4096), i = ix2 b s := ⟨i 0, i 1, eq_ix2 i⟩
  have hR : S2x4096x32768.Reduces [2] S2x4096 := by decide
  have h32 : S2x4096x32768.size 2 = 32768 := rfl
  have e : ∀ k : Fin (S2x4096x32768.size 2), hR.lift (ix2 b s) k = ix3 b s (k.cast h32) := fun k =>
    funext fun a => Fin.ext (by match a with | ⟨0, _⟩ => rfl | ⟨1, _⟩ => rfl | ⟨2, _⟩ => rfl)
  unfold val_main_v23
  refine (Host.reduce_eq_fold_single (FloatOps.minimumf (F := Ideal) (φ := .f32)) (val_main_v22 (F := Ideal) x0 x1 x2) (val_main_cst_4 (F := Ideal))
    reducesTo_S2x4096x32768_S2x4096_d2 hR h_S_ (ix2 b s)).trans ?_
  rw [show val_main_cst_4 (F := Ideal) (Shape.Idx.first h_S_) = ⊤ from ofBits_posInf]
  rw [nearest_ix2]
  unfold nearestAt
  rw [← fold_min_sqrt]
  refine (fold_fin_congr (FloatOps.minimumf (F := Ideal) (φ := .f32)) ⊤ h32 _
    (fun p : Fin 32768 => Ideal.sqrt (sqDist (val_main_v6 (F := Ideal) x0 x2) x1 b s p)) (fun k => ?_)).trans rfl
  show val_main_v22 (F := Ideal) x0 x1 x2 (hR.lift (ix2 b s) k) = _
  rw [e k, val_main_v22_apply, Ideal.hostUnary_sqrt_def, clamped_apply]

end Cert.ReferenceIdeal.Nearest

end
-- ==== Proof.lean ====
/-
  Mean nearest-neighbour distance: the kernel against its reference, over the extended reals.

  Both programs pick 4096 of the 8192 predicted points by an index list (an index below zero counted from the end),
  form for every picked point x and every one of the 32768 target points y of the same batch the squared distance
  |x|^2 + |y|^2 - 2 x.y clamped below at zero, and average over the 2 x 4096 picked points the distance to the
  nearest target. The reference takes the root of every clamped squared distance and then the minimum over the
  targets; the kernel walks the targets in sixteen tiles of 2048, keeps a running minimum of the clamped squared
  distances in a scratch block seeded with plus infinity, and takes the root once, after the last tile.

  The two agree because the ideal square root is monotone on the extended reals (bottom below zero, the real root
  on the non-negative reals, top at top), hence commutes with a minimum seeded with top, and because a minimum over
  32768 positions can be taken tile by tile (Proof/TileMin.lean). No use is made of the inputs being finite.

  Proof/DistSpec.lean states the common function; Proof/RefNearest.lean shows the reference's row minima are it;
  Proof/KernelTile.lean reads one accumulator update at an index, Proof/KernelPieces.lean what each control case
  leaves behind, Proof/KernelAcc.lean the accumulator after every grid point by induction over the grid, and
  Proof/KernelFinal.lean the array the kernel call ends with and the program's result. Below: the two programs pick
  the same points, and the five claims.
-/
import proofs.«127007_j42795054137807_1_alg».proof.Defs
import proofs.«127007_j42795054137807_1_alg».proof.Proof.Gen.Kernel
import proofs.«127007_j42795054137807_1_alg».proof.Proof.Gen.Kernel.Frame
import proofs.«127007_j42795054137807_1_alg».proof.Proof.Gen.KernelIdeal
import proofs.«127007_j42795054137807_1_alg».proof.Proof.Gen.KernelIdeal.Frame
import proofs.«127007_j42795054137807_1_alg».proof.Proof.Gen.ReferenceIdeal
import proofs.«127007_j42795054137807_1_alg».proof.Proof.Gen.Pre_finite_inputs
import proofs.«127007_j42795054137807_1_alg».proof.Proof.Gen.ReferenceIdeal.Run
import proofs.«127007_j42795054137807_1_alg».proof.Proof.Gen.ReferenceIdeal.Read
import proofs.«127007_j42795054137807_1_alg».proof.Proof.KernelFinal
import proofs.«127007_j42795054137807_1_alg».proof.Proof.RefNearest
import Idealize.ShloMosaic.Adequacy
import Idealize.ShloMosaic.Init

noncomputable section

namespace Cert.Proof

open Idealize.ShloMosaic Idealize.ShloMosaic.TcCoe Idealize.SL.Sem Cert.NearestDist

/-- The reference picks its points exactly as the kernel program does: the same index arithmetic and the same gather. -/
theorem ref_picked (x0 : FVec Ideal Cert.KernelIdeal.S2x8192x3 .f32) (x2 : IVec Cert.KernelIdeal.S4096 32) :
    Cert.ReferenceIdeal.Read.val_main_v6 (F := Ideal) x0 x2
      = Host.gather Cert.KernelIdeal.gather_S2x8192x3_S4096x1_S2x4096x3_02_1_n_n_1_1_213 x0
          (broadcastInDim Cert.KernelIdeal.S4096x1 ![0] Cert.KernelIdeal.Gen.bcast_S4096_S4096x1_0
            (select (cmpi .slt x2 (broadcastInDim Cert.KernelIdeal.S4096 ![] Cert.KernelIdeal.Gen.bcast_S_S4096 (constantI Cert.KernelIdeal.S_ 32 0#32)))
              (addi x2 (broadcastInDim Cert.KernelIdeal.S4096 ![] Cert.KernelIdeal.Gen.bcast_S_S4096 (constantI Cert.KernelIdeal.S_ 32 8192#32)))
              x2)) := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the mean of the nearest-neighbour distances of the same picked points to the same targets. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v25_eq, (hagree c).1, (hagree c).2.1, (hagree c).2.2]
  unfold Cert.ReferenceIdeal.Read.val_main_v25 Cert.ReferenceIdeal.Read.val_main_v24
  rw [Cert.ReferenceIdeal.Nearest.nearest_eq, ref_picked]
  show _ = Host.divf (F := Ideal) (Host.reduceAdd (F := Ideal) (nearest (Cert.KernelIdeal.Acc.picked m c) (Cert.KernelIdeal.Acc.targets m c)) _ _ _) _
  rw [Cert.KernelIdeal.Final.picked_eq m c, show Cert.KernelIdeal.Acc.targets m c = _ from Cert.KernelIdeal.Gen.V_main_arg1 m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
